-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x512 : Shape := ⟨3, ![32, 2048, 512]⟩
abbrev S_ : Shape := ⟨0, ![]⟩

class Facts : Prop where
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel

variable [Facts]

def fn {F : FTy → Type} [FloatOps F] (main_arg0 : FVec F S32x2048x512 .f32) : IVec S_ 1 :=
  let main_v0 : FVec F S32x2048x512 .f32 := Host.absf main_arg0
  let main_cst : FVec F S_ .f32 := constant S_ .f32 0x7F800000#32
  let main_v1 : FVec F S32x2048x512 .f32 := broadcastInDim S32x2048x512 ![] bcast_S_S32x2048x512 main_cst
  let main_v2 : IVec S32x2048x512 1 := cmpf .olt main_v0 main_v1
  let main_c : IVec S_ 1 := constantI S_ 1 1#1
  let main_v3 : IVec S_ 1 := (fun x v => Host.reduce IntOp.andi x v reducesTo_S32x2048x512_S_d0_1_2 h_S_) main_v2 main_c
  main_v3
-- ==== Kernel.lean ====
abbrev S32x2048x512 : Shape := ⟨3, ![32, 2048, 512]⟩
abbrev S32x1x512 : Shape := ⟨3, ![32, 1, 512]⟩
abbrev S1x2048x512 : Shape := ⟨3, ![1, 2048, 512]⟩
abbrev S1x1x512 : Shape := ⟨3, ![1, 1, 512]⟩
abbrev S2048x512 : Shape := ⟨2, ![2048, 512]⟩
abbrev S1x512 : Shape := ⟨2, ![1, 512]⟩
abbrev S1x256x512 : Shape := ⟨3, ![1, 256, 512]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩
abbrev S512 : Shape := ⟨1, ![512]⟩
abbrev S32x512 : Shape := ⟨2, ![32, 512]⟩

abbrev nBuf : Space → Nat
  | .hbm => 3
  | .vmem => 5
  | .smem => 0
  | _ => 0

abbrev bufTy : (tb : Table) → Fin (tcTables nBuf tb) → BufTy
  | .hbm, ⟨0, _⟩ => ⟨S32x2048x512, .f32⟩
  | .hbm, ⟨1, _⟩ => ⟨S32x1x512, .f32⟩
  | .hbm, ⟨2, _⟩ => ⟨S32x512, .f32⟩
  | .local _ .vmem, ⟨0, _⟩ => ⟨S1x2048x512, .f32⟩
  | .local _ .vmem, ⟨1, _⟩ => ⟨S1x2048x512, .f32⟩
  | .local _ .vmem, ⟨2, _⟩ => ⟨S1x1x512, .f32⟩
  | .local _ .vmem, ⟨3, _⟩ => ⟨S1x1x512, .f32⟩
  | .local _ .vmem, ⟨4, _⟩ => ⟨S2048x512, .bf16⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 2], ![false, false]⟩

def k0_mult1 (i : grid0.Coords) : BitVec 32 :=
  let arg1 : BitVec 32 := BitVec.ofNat 32 (i 1).val
  let c1024_i32 : BitVec 32 := 1024#32
  let v6 : BitVec 32 := Scalar.muli arg1 c1024_i32
  let c0_i32_5 : BitVec 32 := 0#32
  let v7 : BitVec 32 := Scalar.addi v6 c0_i32_5
  v7
def k0_off1 (i : grid0.Coords) (c0_i32_5 : BitVec 32) : Fin 3 → Nat :=
  let c0_6 : Index := 0#32
  let arg1 : BitVec 32 := BitVec.ofNat 32 (i 1).val
  let c1024_i32 : BitVec 32 := 1024#32
  let v6 : BitVec 32 := Scalar.muli arg1 c1024_i32
  let v7 : BitVec 32 := Scalar.addi v6 c0_i32_5
  let v8 : BitVec 32 := v7
  let v9 : Index := Scalar.indexCast v8
  let c0_7 : Index := 0#32
  ![0, v9.toNat, 0]
def k0_mult2 (i : grid0.Coords) : BitVec 32 :=
  let arg1 : BitVec 32 := BitVec.ofNat 32 (i 1).val
  let c1024_i32_12 : BitVec 32 := 1024#32
  let v26 : BitVec 32 := Scalar.muli arg1 c1024_i32_12
  let c256_i32 : BitVec 32 := 256#32
  let v27 : BitVec 32 := Scalar.addi v26 c256_i32
  v27
def k0_mult3 (i : grid0.Coords) : BitVec 32 :=
  let arg1 : BitVec 32 := BitVec.ofNat 32 (i 1).val
  let c1024_i32_20 : BitVec 32 := 1024#32
  let v46 : BitVec 32 := Scalar.muli arg1 c1024_i32_20
  let c512_i32 : BitVec 32 := 512#32
  let v47 : BitVec 32 := Scalar.addi v46 c512_i32
  v47
def k0_mult4 (i : grid0.Coords) : BitVec 32 :=
  let arg1 : BitVec 32 := BitVec.ofNat 32 (i 1).val
  let c1024_i32_28 : BitVec 32 := 1024#32
  let v66 : BitVec 32 := Scalar.muli arg1 c1024_i32_28
  let c768_i32 : BitVec 32 := 768#32
  let v67 : BitVec 32 := Scalar.addi v66 c768_i32
  v67
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  packedbf16_S2048x512_S2048x512_0_0 : (Rect.unit (s := S2048x512) ![0, 0] S2048x512.size inb_S2048x512_S2048x512_0_0).PackedRows (EltTy.packing .bf16)
  h_S1x256x512 : 0 < S1x256x512.numel
  shapeCasts_S1x256x512_S256x512 : S1x256x512.ShapeCasts S256x512
  reduces_S256x2048_S256 : S256x2048.Reduces [1] S256
  shapeCasts_S256_S256x1 : S256.ShapeCasts S256x1
  broadcasts_S256x1_S256x2048 : S256x1.Broadcasts S256x2048
  broadcasts_S256x1_S256x512 : S256x1.Broadcasts S256x512
  reduces_S256x512_S512 : S256x512.Reduces [0] S512
  shapeCasts_S512_S1x512 : S512.ShapeCasts S1x512
  shapeCasts_S32x1x512_S32x512 : S32x1x512.ShapeCasts S32x512
  dot_S256x512_S2048x512_S256x2048_1_1_0_0_n_n_wf : DotDims.WF S256x512 S2048x512 S256x2048 [1] [1] [0] [0] [] []
  dot_S256x2048_S2048x512_S256x512_1_0_0_1_n_n_wf : DotDims.WF S256x2048 S2048x512 S256x512 [1] [0] [0] [1] [] []
  hrank0 : 0 < grid0.rank
  k0_mult1_dvd : ∀ i : grid0.Coords, 256 ∣ (k0_mult1 i).toNat
  k0_off1_inb : ∀ i : grid0.Coords, ∀ (r : Fin 4), ∀ a, (k0_off1 i (BitVec.ofNat 32 (256 * r.val))) a + S1x256x512.size a ≤ S1x2048x512.size a
  k0_mult2_dvd : ∀ i : grid0.Coords, 256 ∣ (k0_mult2 i).toNat
  k0_mult3_dvd : ∀ i : grid0.Coords, 256 ∣ (k0_mult3 i).toNat
  k0_mult4_dvd : ∀ i : grid0.Coords, 256 ∣ (k0_mult4 i).toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S32x2048x512.size a
  hwx0_0 : ∀ i : grid0.Coords, EltTy.bits .f32 = 32 ∨ (Rect.block (s := S32x2048x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S32x1x512.size a
  hwx0_1 : ∀ i : grid0.Coords, EltTy.bits .f32 = 32 ∨ (Rect.block (s := S32x1x512) S1x1x512.size (cc0_transform_1 i) (hinb0_1 i)).WholeWords (EltTy.packing .f32)

variable [Facts₀]

def dot_S256x512_S2048x512_S256x2048_1_1_0_0_n_n : DotDims S256x512 S2048x512 S256x2048 where
  lhsContracting := [1]
  rhsContracting := [1]
  lhsNonContracting := [0]
  rhsNonContracting := [0]
  lhsBatch := []
  rhsBatch := []
  wf := dot_S256x512_S2048x512_S256x2048_1_1_0_0_n_n_wf
def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x2048x512 : Shape := ⟨3, ![32, 2048, 512]⟩
abbrev S32x2048x2048 : Shape := ⟨3, ![32, 2048, 2048]⟩
abbrev S_ : Shape := ⟨0, ![]⟩
abbrev S32x2048 : Shape := ⟨2, ![32, 2048]⟩
abbrev S32x2048x1 : Shape := ⟨3, ![32, 2048, 1]⟩
abbrev S32x512 : Shape := ⟨2, ![32, 512]⟩

abbrev nBuf : Space → Nat
  | .hbm => 22
  | .vmem => 0
  | .smem => 0
  | _ => 0

abbrev bufTy : (tb : Table) → Fin (tcTables nBuf tb) → BufTy
  | .hbm, ⟨0, _⟩ => ⟨S32x2048x512, .f32⟩
  | .hbm, ⟨1, _⟩ => ⟨S32x2048x2048, .f32⟩
  | .hbm, ⟨2, _⟩ => ⟨S_, .f32⟩
  | .hbm, ⟨3, _⟩ => ⟨S32x2048, .f32⟩
  | .hbm, ⟨4, _⟩ => ⟨S_, .f32⟩
  | .hbm, ⟨5, _⟩ => ⟨S32x2048, .f32⟩
  | .hbm, ⟨6, _⟩ => ⟨S32x2048, .f32⟩
  | .hbm, ⟨7, _⟩ => ⟨S32x2048x1, .f32⟩
  | .hbm, ⟨8, _⟩ => ⟨S32x2048x2048, .f32⟩
  | .hbm, ⟨9, _⟩ => ⟨S32x2048x2048, .f32⟩
  | .hbm, ⟨10, _⟩ => ⟨S32x2048x2048, .f32⟩
  | .hbm, ⟨11, _⟩ => ⟨S_, .f32⟩
  | .hbm, ⟨12, _⟩ => ⟨S32x2048, .f32⟩
  | .hbm, ⟨13, _⟩ => ⟨S32x2048x1, .f32⟩
  | .hbm, ⟨14, _⟩ => ⟨S32x2048x2048, .f32⟩
  | .hbm, ⟨15, _⟩ => ⟨S32x2048x2048, .f32⟩
  | .hbm, ⟨16, _⟩ => ⟨S32x2048x512, .f32⟩
  | .hbm, ⟨17, _⟩ => ⟨S_, .f32⟩
  | .hbm, ⟨18, _⟩ => ⟨S32x512, .f32⟩
  | .hbm, ⟨19, _⟩ => ⟨S_, .f32⟩
  | .hbm, ⟨20, _⟩ => ⟨S32x512, .f32⟩
  | .hbm, ⟨21, _⟩ => ⟨S32x512, .f32⟩
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  reducesTo_S32x2048x512_S32x512_d1 : S32x2048x512.ReducesTo [1] S32x512
  bcast_S_S32x512 : S_.BroadcastsInDim S32x512 (![] : Fin 0 → Fin S32x512.rank)
  dot_S32x2048x512_S32x2048x512_S32x2048x2048_2_2_1_1_0_0_wf : DotDims.WF S32x2048x512 S32x2048x512 S32x2048x2048 [2] [2] [1] [1] [0] [0]
  dot_S32x2048x2048_S32x2048x512_S32x2048x512_2_1_1_2_0_0_wf : DotDims.WF S32x2048x2048 S32x2048x512 S32x2048x512 [2] [1] [1] [2] [0] [0]

variable [Facts₀]

def dot_S32x2048x512_S32x2048x512_S32x2048x2048_2_2_1_1_0_0 : DotDims S32x2048x512 S32x2048x512 S32x2048x2048 where
  lhsContracting := [2]
  rhsContracting := [2]
  lhsNonContracting := [1]
  rhsNonContracting := [1]
  lhsBatch := [0]
  rhsBatch := [0]
  wf := dot_S32x2048x512_S32x2048x512_S32x2048x2048_2_2_1_1_0_0_wf
def dot_S32x2048x2048_S32x2048x512_S32x2048x512_2_1_1_2_0_0 : DotDims S32x2048x2048 S32x2048x512 S32x2048x512 where
  lhsContracting := [2]
  rhsContracting := [1]
  lhsNonContracting := [1]
  rhsNonContracting := [2]
  lhsBatch := [0]
  rhsBatch := [0]
  wf := dot_S32x2048x2048_S32x2048x512_S32x2048x512_2_1_1_2_0_0_wf

class Facts : Prop extends Facts₀ where

variable [Facts]
-- ==== Proof.Pieces.lean ====
/-
  What the kernel's body leaves in the output block and in the value scratch, per control case, as ONE pure
  function of what it found: the batch entry's block `x0`, the scratch `xs` (the block's rows kept for the
  second product) and the running output block `xo`.

  The body runs four identical sub-chains, each over 256 query rows cut out of the block (`qrows`): scores
  against all 2048 rows, row maximum, exponentials, row sums, the product with the values, the division by the row
  sums, the sum over the 256 rows (`subchain`). The four partial rows are added left to right, divided by the
  sequence length and added to the running output (`finish`). At the first tile of a batch entry the running
  output is the zero block and the scratch is the block itself, stored just before (`out_A`, `sout_A`); at the
  second tile both are what the first tile left (`out_B`).
-/
import proofs.«427994_j68839735820744_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The 256 rows of the block that sub-chain `r` takes as its queries: rows `1024·q + 256·r …` of the tile `q`. -/
abbrev qrows (i : grid0.Coords) (r : Fin 4) (x0 : Vec F S1x2048x512 .f32) : Vec F S1x256x512 .f32 :=
  View.ld x0 (Rect.unit (s := S1x2048x512) (k0_off1 i (BitVec.ofNat 32 (256 * r.val))) S1x256x512.size (k0_off1_inb i r))

/-- The scores of 256 query rows `q` against the 2048 key rows `kf`. -/
def scoresOf (q : FVec F S256x512 .f32) (kf : FVec F S2048x512 .f32) : FVec F S256x2048 .f32 :=
  matmul dot_S256x512_S2048x512_S256x2048_1_1_0_0_n_n (some .fp32) q kf (constant S256x2048 .f32 0x00000000#32)

/-- The unnormalised weights: the exponential of each score less its row's maximum. -/
def expOf (q : FVec F S256x512 .f32) (kf : FVec F S2048x512 .f32) : FVec F S256x2048 .f32 :=
  exp (subf (scoresOf q kf)
    (broadcastTo S256x2048
      (shapeCast S256x1 (multiReduction .maximumf [1] S256 (scoresOf q kf) 0xFF800000#32 reduces_S256x2048_S256 (.inl rfl) rfl)
        shapeCasts_S256_S256x1)
      broadcasts_S256x1_S256x2048))

/-- The context rows: the weights times the values `vb`, each row divided by its weights' sum. -/
def ctxOf (q : FVec F S256x512 .f32) (kf : FVec F S2048x512 .f32) (vb : Vec F S2048x512 .bf16) : FVec F S256x512 .f32 :=
  divf
    (matmul dot_S256x2048_S2048x512_S256x512_1_0_0_1_n_n none (truncf .bf16 (expOf q kf) bitsLt_bf16_f32) vb
      (constant S256x512 .f32 0x00000000#32))
    (broadcastTo S256x512
      (shapeCast S256x1 (multiReduction .add [1] S256 (expOf q kf) 0x00000000#32 reduces_S256x2048_S256 (.inl rfl) rfl)
        shapeCasts_S256_S256x1)
      broadcasts_S256x1_S256x512)

/-- One sub-chain: 256 query rows `q` against the keys `kf` and the values `vb`; the result, the sum of the 256
    context rows, is one row of 512. -/
def subchain (q : FVec F S256x512 .f32) (kf : FVec F S2048x512 .f32) (vb : Vec F S2048x512 .bf16) : FVec F S1x512 .f32 :=
  shapeCast S1x512
    (multiReduction .add [0] S512 (ctxOf q kf vb) 0x00000000#32 reduces_S256x512_S512 (.inl rfl) rfl)
    shapeCasts_S512_S1x512

/-- The four partial rows added left to right, divided by the sequence length, added to the running output. -/
def finish (p0 p1 p2 p3 : FVec F S1x512 .f32) (xo : Vec F S1x1x512 .f32) : FVec F S1x1x512 .f32 :=
  shapeCast S1x1x512
    (addf (shapeCast S1x512 xo shapeCasts_S1x1x512_S1x512)
      (divf (addf (addf (addf p0 p1) p2) p3) (broadcast S1x512 (Scalar.ofBits .f32 0x45000000#32))))
    shapeCasts_S1x512_S1x1x512

/-- The 256 query rows as a matrix. -/
abbrev qmat (i : grid0.Coords) (r : Fin 4) (x0 : Vec F S1x2048x512 .f32) : FVec F S256x512 .f32 :=
  shapeCast S256x512 (qrows i r x0) shapeCasts_S1x256x512_S256x512

/-- What one run of the body leaves in the output block, from the block, the scratch and the running output. -/
def bodyOut (i : grid0.Coords) (x0 : Vec F S1x2048x512 .f32) (xs : Vec F S2048x512 .bf16) (xo : Vec F S1x1x512 .f32) :
    Vec F S1x1x512 .f32 :=
  finish (subchain (qmat i 0 x0) (k0_pay4 x0) xs) (subchain (qmat i 1 x0) (k0_pay4 x0) xs)
    (subchain (qmat i 2 x0) (k0_pay4 x0) xs) (subchain (qmat i 3 x0) (k0_pay4 x0) xs) xo

/-- The body's one covering store, over its loads, is `bodyOut`: the generated payloads are the four sub-chains and
    the finish, cut where the printed function was cut. -/
theorem pay1_eq (i : grid0.Coords) (x0 : Vec F S1x2048x512 .f32) (xs : Vec F S2048x512 .bf16) (xo : Vec F S1x1x512 .f32) :
    k0_pay1 xs (k0_pay5 x0 xs (qrows i 0 x0)) (k0_pay8 xs (k0_pay6 x0 (qrows i 1 x0)) (k0_pay7 x0 (qrows i 1 x0)))
      (k0_pay9 (k0_pay4 x0) xs (qrows i 2 x0)) (k0_pay10 (k0_pay4 x0) (qrows i 3 x0)) xo = bodyOut i x0 xs xo := rfl

/-- The second tile of a batch entry: the scratch and the running output are what the first tile left. -/
theorem out_B (c : Dev nD) (i : grid0.Coords) (a2 : Memref sig .tc .vmem S1x2048x512 .f32) (h2 : a2.IsWhole)
    (a3 : Memref sig .tc .vmem S1x1x512 .f32) (h3 : a3.IsWhole) (a4 : Memref sig .tc .vmem S2048x512 .bf16) (h4 : a4.IsWhole)
    (hc : ¬cond0_0 i) (x0 : Vec F S1x2048x512 .f32) (xo1 : Vec F S1x1x512 .f32) (xs0 : Vec F S2048x512 .bf16) :
    out0_B_1 c i a2 h2 a3 h3 a4 h4 hc x0 xo1 xs0 = bodyOut i x0 xs0 xo1 := by
  unfold out0_B_1
  rw [View.read_writes_eq_canon _ _ _ (cover0_B_1 c i a2 h2 a3 h3 a4 h4 hc x0 xo1 xs0)]
  unfold kernelRun0_B
  dsimp only
  sl_unfold_words
  rw [View.canon_unit_zero hz3]
  simp only [View.readAt_eq_ld, h2.read_unread, h3.read_unread, h4.read_unread, View.ld_unit_zero (S := S1x2048x512) hz3,
    View.ld_unit_zero (S := S1x1x512) hz3, View.ld_unit_zero (S := S2048x512) hz2]
  exact pay1_eq i x0 xs0 xo1

/-- The first tile of a batch entry stores the block into the scratch: the scratch ends at the block's rows. -/
theorem sout_A (c : Dev nD) (i : grid0.Coords) (a2 : Memref sig .tc .vmem S1x2048x512 .f32) (h2 : a2.IsWhole)
    (a3 : Memref sig .tc .vmem S1x1x512 .f32) (h3 : a3.IsWhole) (a4 : Memref sig .tc .vmem S2048x512 .bf16) (h4 : a4.IsWhole)
    (hc : cond0_0 i) (x0 : Vec F S1x2048x512 .f32) :
    sout0_A_0 c i a2 h2 a3 h3 a4 h4 hc x0 = k0_pay3 x0 := by
  unfold sout0_A_0
  rw [View.read_writes_eq_canon _ _ _ (scover0_A_0 c i a2 h2 a3 h3 a4 h4 hc x0)]
  unfold kernelRun0_A
  dsimp only
  sl_unfold_words
  rw [View.canon_unit_zero hz2]
  simp only [View.readAt_eq_ld, h2.read_unread, View.ld_unit_zero (S := S1x2048x512) hz3]

/-- The first tile: the running output is the zero block just stored, the scratch the block's rows just stored. -/
theorem out_A (c : Dev nD) (i : grid0.Coords) (a2 : Memref sig .tc .vmem S1x2048x512 .f32) (h2 : a2.IsWhole)
    (a3 : Memref sig .tc .vmem S1x1x512 .f32) (h3 : a3.IsWhole) (a4 : Memref sig .tc .vmem S2048x512 .bf16) (h4 : a4.IsWhole)
    (hc : cond0_0 i) (x0 : Vec F S1x2048x512 .f32) :
    out0_A_1 c i a2 h2 a3 h3 a4 h4 hc x0 = bodyOut i x0 (k0_pay3 x0) k0_pay2 := by
  unfold out0_A_1
  rw [View.read_writes_eq_canon _ _ _ (cover0_A_1 c i a2 h2 a3 h3 a4 h4 hc x0)]
  unfold kernelRun0_A
  dsimp only
  sl_unfold_words
  rw [View.canon_cons_unit_zero (S := S1x1x512) hz3]
  simp only [View.readCov_unit_zero (S := S2048x512) _ hz2, View.readCov_unit_zero (S := S1x1x512) _ hz3,
    View.readAt_eq_ld, h2.read_unread, View.ld_unit_zero (S := S1x2048x512) hz3]
  exact pay1_eq i x0 (k0_pay3 x0) k0_pay2

end Cert.KernelIdeal.Pieces

end
-- ==== Proof.LibColumns.lean ====
/-
  Two layout operations read at an entry, for a column kept as an [a, 1] matrix — what a row reduction with
  kept dimensions passes through on its way back over the rows: a vector of a entries cast to one column, and
  one column laid along every column of an a × b matrix. Stated for any element type and any extents.
-/
import Idealize.ShloMosaic.Lib.Pipeline.Value
import Idealize.ShloMosaic.Lib.ValueIdx

namespace Cert.Lib.Columns

open Idealize.ShloMosaic Idealize.ShloMosaic.ValueIdx

variable {α : Type}

/-- An `[a]` array cast to `[a, 1]` reads, at `(i, u)`, the operand at `i`, whatever the unit coordinate `u`:
    both indices have the same row-major position, i · 1 + 0 = i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Columns
-- ==== Proof.Spec.lean ====
/-
  The mathematics both programs compute, for ONE batch entry: `X : Fin 2048 → Fin 512 → EReal` is the entry's
  2048 rows of 512 features, queries, keys and values at once.

  * `score X s t`  = ⟨row s, row t⟩, the unscaled attention score;
  * `rowMax X s`   = the maximum of row `s` of the scores, folded from −∞;
  * `weight X s t` = exp (score − rowMax), the unnormalised softmax weight;
  * `denom X s`    = the sum of row `s` of the weights.

  The kernel multiplies the unnormalised weights into the values and divides the product by the denominator
  (`ctxK`); the reference divides each weight first (`ctxR`).  The kernel pools 256 rows at a time (`chunk`), four
  chunks to a tile of 1024 rows, divides each tile's sum by 2048 and adds the two tiles to a zero start
  (`pooledK`); the reference sums all 2048 context rows from zero and divides once (`pooledR`).
-/
import Idealize.ShloMosaic.PureOps.Ideal

noncomputable section

namespace Cert.AttnPool

open Idealize.ShloMosaic

/-- −∞, as the f32 pattern both row maxima start from. -/
abbrev negInf : EReal := Ideal.ofBits .f32 0xFF800000#32

/-- The sequence length as the f32 pattern both programs divide by. -/
abbrev seqLen : EReal := Ideal.ofBits .f32 0x45000000#32

variable (X : Fin 2048 → Fin 512 → EReal)

/-- ⟨row s, row t⟩. -/
def score (s t : Fin 2048) : EReal := ∑ d : Fin 512, X s d * X t d

/-- The maximum over `t` of the scores of row `s`, from −∞. -/
def rowMax (s : Fin 2048) : EReal :=
  (Finset.univ : Finset (Fin 2048)).fold max negInf (fun t => score X s t)

/-- The unnormalised softmax weight. -/
def weight (s t : Fin 2048) : EReal := Ideal.exp (score X s t - rowMax X s)

/-- The softmax denominator of row `s`. -/
def denom (s : Fin 2048) : EReal := ∑ t : Fin 2048, weight X s t

/-- Context row `s` as the kernel takes it: the weighted sum of the values, THEN the division. -/
def ctxK (s : Fin 2048) (d : Fin 512) : EReal :=
  Ideal.div (∑ t : Fin 2048, weight X s t * X t d) (denom X s)

/-- Context row `s` as the reference takes it: each weight divided, THEN the weighted sum. -/
def ctxR (s : Fin 2048) (d : Fin 512) : EReal :=
  ∑ t : Fin 2048, Ideal.div (weight X s t) (denom X s) * X t d

/-- Row `r` of chunk `j` of tile `q`. -/
def row (q : Fin 2) (j : Fin 4) (r : Fin 256) : Fin 2048 :=
  ⟨q.val * 1024 + j.val * 256 + r.val, by omega⟩

/-- The kernel's sum of 256 context rows. -/
def chunk (q : Fin 2) (j : Fin 4) (d : Fin 512) : EReal := ∑ r : Fin 256, ctxK X (row q j r) d

/-- One tile's contribution: four chunks added left to right, divided by the sequence length. -/
def tile (q : Fin 2) (d : Fin 512) : EReal :=
  Ideal.div (((chunk X q 0 d + chunk X q 1 d) + chunk X q 2 d) + chunk X q 3 d) seqLen

/-- What the kernel leaves: zero, plus the first tile, plus the second. -/
def pooledK (d : Fin 512) : EReal := (0 + tile X 0 d) + tile X 1 d

/-- What the reference leaves: the sum of all context rows over the sequence length. -/
def pooledR (d : Fin 512) : EReal := Ideal.div (∑ s : Fin 2048, ctxR X s d) seqLen

end Cert.AttnPool

end
-- ==== Proof.ChainValue.lean ====
/-
  The body's value, index by index, over the extended reals.

  A sub-chain over query rows `q`, keys `kf` and values `vb` leaves at lane `d` the sum over its 256 rows `r` of
      ( ∑ₜ wₜ · vb(t, d) ) / ( ∑ₜ wₜ ),   wₜ = exp( ⟨q r, kf t⟩ − maxₜ' ⟨q r, kf t'⟩ ),
  the maximum folded from −∞ (`qscore`, `qmax`, `qweight`, `qctx`; `subchain_apply`). When the query rows, the keys
  and the values are all rows of one batch entry `X`, that is the specification's `ctxK` (`qctx_eq_ctxK`), so one run
  of the body adds the tile's pooled contribution to the running output (`bodyOut_apply`).
-/
import proofs.«427994_j68839735820744_3_alg».proof.Proof.Pieces
import proofs.«427994_j68839735820744_3_alg».proof.Proof.LibColumns
import proofs.«427994_j68839735820744_3_alg».proof.Proof.Spec
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.ChainValue

open Cert.KernelIdeal Cert.KernelIdeal.Gen Cert.KernelIdeal.Pieces Cert.AttnPool Cert.Lib.Columns

/-! ## The two products at an index -/

theorem lhs_sc_0 (i : S256x2048.Idx) (k : dot_S256x512_S2048x512_S256x2048_1_1_0_0_n_n.contr.Idx) :
    (dot_S256x512_S2048x512_S256x2048_1_1_0_0_n_n.lhsIdx i k 0).val = (i 0).val := by
  unfold DotDims.lhsIdx
  rw [dif_neg (show ¬(0 : Fin S256x512.rank) ∈ dot_S256x512_S2048x512_S256x2048_1_1_0_0_n_n.lhsBatch by decide), dif_pos (show (0 : Fin S256x512.rank) ∈ dot_S256x512_S2048x512_S256x2048_1_1_0_0_n_n.lhsNonContracting by decide)]
  rfl
theorem lhs_sc_1 (i : S256x2048.Idx) (k : dot_S256x512_S2048x512_S256x2048_1_1_0_0_n_n.contr.Idx) :
    (dot_S256x512_S2048x512_S256x2048_1_1_0_0_n_n.lhsIdx i k 1).val = (k ⟨0, by decide⟩).val :=
  dot_S256x512_S2048x512_S256x2048_1_1_0_0_n_n.lhsIdx_val_of_single rfl i k
theorem rhs_sc_0 (i : S256x2048.Idx) (k : dot_S256x512_S2048x512_S256x2048_1_1_0_0_n_n.contr.Idx) :
    (dot_S256x512_S2048x512_S256x2048_1_1_0_0_n_n.rhsIdx i k 0).val = (i 1).val := by
  unfold DotDims.rhsIdx
  rw [dif_neg (show ¬(0 : Fin S2048x512.rank) ∈ dot_S256x512_S2048x512_S256x2048_1_1_0_0_n_n.rhsBatch by decide), dif_pos (show (0 : Fin S2048x512.rank) ∈ dot_S256x512_S2048x512_S256x2048_1_1_0_0_n_n.rhsNonContracting by decide)]
  rfl
theorem rhs_sc_1 (i : S256x2048.Idx) (k : dot_S256x512_S2048x512_S256x2048_1_1_0_0_n_n.contr.Idx) :
    (dot_S256x512_S2048x512_S256x2048_1_1_0_0_n_n.rhsIdx i k 1).val = (k ⟨0, by decide⟩).val :=
  dot_S256x512_S2048x512_S256x2048_1_1_0_0_n_n.rhsIdx_val_of_single rfl i k

/-- The score of query row `r` against key row `t`: the sum over the 512 features of the products. -/
theorem scoresOf_apply (q : FVec Ideal S256x512 .f32) (kf : FVec Ideal S2048x512 .f32) (r : Fin 256) (t : Fin 2048) :
    scoresOf q kf (ix2 r t) = ∑ e : Fin 512, q (ix2 r e) * kf (ix2 t e) := by
  unfold scoresOf
  simp only [matmul]
  rw [Ideal.matmul_constant_zero_apply, ← Equiv.sum_comp (contrEquiv1 dot_S256x512_S2048x512_S256x2048_1_1_0_0_n_n 512 rfl rfl).symm]
  refine Finset.sum_congr rfl fun k _ => ?_
  have hk := contrEquiv1_symm_val dot_S256x512_S2048x512_S256x2048_1_1_0_0_n_n 512 rfl rfl k
  have el : dot_S256x512_S2048x512_S256x2048_1_1_0_0_n_n.lhsIdx (ix2 r t) ((contrEquiv1 dot_S256x512_S2048x512_S256x2048_1_1_0_0_n_n 512 rfl rfl).symm k) = ix2 r k := funext fun a => Fin.ext (by
    match a with
    | ⟨0, _⟩ => exact lhs_sc_0 _ _
    | ⟨1, _⟩ => exact (lhs_sc_1 _ _).trans hk)
  have er : dot_S256x512_S2048x512_S256x2048_1_1_0_0_n_n.rhsIdx (ix2 r t) ((contrEquiv1 dot_S256x512_S2048x512_S256x2048_1_1_0_0_n_n 512 rfl rfl).symm k) = ix2 t k := funext fun a => Fin.ext (by
    match a with
    | ⟨0, _⟩ => exact rhs_sc_0 _ _
    | ⟨1, _⟩ => exact (rhs_sc_1 _ _).trans hk)
  rw [el, er]

theorem lhs_pv_0 (i : S256x512.Idx) (k : dot_S256x2048_S2048x512_S256x512_1_0_0_1_n_n.contr.Idx) :
    (dot_S256x2048_S2048x512_S256x512_1_0_0_1_n_n.lhsIdx i k 0).val = (i 0).val := by
  unfold DotDims.lhsIdx
  rw [dif_neg (show ¬(0 : Fin S256x2048.rank) ∈ dot_S256x2048_S2048x512_S256x512_1_0_0_1_n_n.lhsBatch by decide), dif_pos (show (0 : Fin S256x2048.rank) ∈ dot_S256x2048_S2048x512_S256x512_1_0_0_1_n_n.lhsNonContracting by decide)]
  rfl
theorem lhs_pv_1 (i : S256x512.Idx) (k : dot_S256x2048_S2048x512_S256x512_1_0_0_1_n_n.contr.Idx) :
    (dot_S256x2048_S2048x512_S256x512_1_0_0_1_n_n.lhsIdx i k 1).val = (k ⟨0, by decide⟩).val :=
  dot_S256x2048_S2048x512_S256x512_1_0_0_1_n_n.lhsIdx_val_of_single rfl i k
theorem rhs_pv_0 (i : S256x512.Idx) (k : dot_S256x2048_S2048x512_S256x512_1_0_0_1_n_n.contr.Idx) :
    (dot_S256x2048_S2048x512_S256x512_1_0_0_1_n_n.rhsIdx i k 0).val = (k ⟨0, by decide⟩).val :=
  dot_S256x2048_S2048x512_S256x512_1_0_0_1_n_n.rhsIdx_val_of_single rfl i k
theorem rhs_pv_1 (i : S256x512.Idx) (k : dot_S256x2048_S2048x512_S256x512_1_0_0_1_n_n.contr.Idx) :
    (dot_S256x2048_S2048x512_S256x512_1_0_0_1_n_n.rhsIdx i k 1).val = (i 1).val := by
  unfold DotDims.rhsIdx
  rw [dif_neg (show ¬(1 : Fin S2048x512.rank) ∈ dot_S256x2048_S2048x512_S256x512_1_0_0_1_n_n.rhsBatch by decide), dif_pos (show (1 : Fin S2048x512.rank) ∈ dot_S256x2048_S2048x512_S256x512_1_0_0_1_n_n.rhsNonContracting by decide)]
  rfl

/-- The product of a weight matrix with the values at (r, d): the sum over the 2048 rows. -/
theorem pv_apply (w : FVec Ideal S256x2048 .bf16) (vb : FVec Ideal S2048x512 .bf16) (r : Fin 256) (d : Fin 512) :
    matmul dot_S256x2048_S2048x512_S256x512_1_0_0_1_n_n none w vb (constant S256x512 .f32 0x00000000#32) (ix2 r d) = ∑ t : Fin 2048, w (ix2 r t) * vb (ix2 t d) := by
  simp only [matmul]
  rw [Ideal.matmul_constant_zero_apply, ← Equiv.sum_comp (contrEquiv1 dot_S256x2048_S2048x512_S256x512_1_0_0_1_n_n 2048 rfl rfl).symm]
  refine Finset.sum_congr rfl fun k _ => ?_
  have hk := contrEquiv1_symm_val dot_S256x2048_S2048x512_S256x512_1_0_0_1_n_n 2048 rfl rfl k
  have el : dot_S256x2048_S2048x512_S256x512_1_0_0_1_n_n.lhsIdx (ix2 r d) ((contrEquiv1 dot_S256x2048_S2048x512_S256x512_1_0_0_1_n_n 2048 rfl rfl).symm k) = ix2 r k := funext fun a => Fin.ext (by
    match a with
    | ⟨0, _⟩ => exact lhs_pv_0 _ _
    | ⟨1, _⟩ => exact (lhs_pv_1 _ _).trans hk)
  have er : dot_S256x2048_S2048x512_S256x512_1_0_0_1_n_n.rhsIdx (ix2 r d) ((contrEquiv1 dot_S256x2048_S2048x512_S256x512_1_0_0_1_n_n 2048 rfl rfl).symm k) = ix2 k d := funext fun a => Fin.ext (by
    match a with
    | ⟨0, _⟩ => exact (rhs_pv_0 _ _).trans hk
    | ⟨1, _⟩ => exact rhs_pv_1 _ _)
  rw [el, er]

/-! ## The three reductions at an index -/

/-- Row `r` with column `t` put back is (r, t). -/
theorem lift_row (h : S256x2048.Reduces [1] S256) (r : Fin 256) (t : Fin (S256x2048.size 1)) :
    h.lift (ix1 r) t = ix2 r (⟨t.val, t.isLt⟩ : Fin 2048) := by
  funext c; apply Fin.ext
  fin_cases c <;> rfl

/-- Lane `d` with row `r` put back is (r, d). -/
theorem lift_col (h : S256x512.Reduces [0] S512) (d : Fin 512) (r : Fin (S256x512.size 0)) :
    h.lift (ix1 d) r = ix2 (⟨r.val, r.isLt⟩ : Fin 256) d := by
  funext c; apply Fin.ext
  fin_cases c <;> rfl

/-- A row maximum: the fold of `max` from −∞ over the row. -/
theorem rowmax_apply (sc : FVec Ideal S256x2048 .f32) (hφ : FKind.Formats .f32)
    (hacc : (0xFF800000#32 : BitVec 32) = FKind.maximumf.neutral .f32 hφ) (r : Fin 256) :
    multiReduction .maximumf [1] S256 sc 0xFF800000#32 reduces_S256x2048_S256 hφ hacc (ix1 r)
      = (Finset.univ : Finset (Fin 2048)).fold max negInf (fun t => sc (ix2 r t)) := by
  refine (Ideal.multiReduction_maximumf_single sc 0xFF800000#32 reduces_S256x2048_S256 hφ hacc (ix1 r)).trans ?_
  have hf : (sc ∘ reduces_S256x2048_S256.lift (ix1 r)) = fun t : Fin 2048 => sc (ix2 r t) :=
    funext fun t => congrArg sc (lift_row reduces_S256x2048_S256 r t)
  exact congrArg (fun f => Finset.fold max negInf f (Finset.univ : Finset (Fin 2048))) hf

/-- A row sum. -/
theorem rowsum_apply (ex : FVec Ideal S256x2048 .f32) (hφ : FKind.Formats .f32)
    (hacc : (0x00000000#32 : BitVec 32) = FKind.add.neutral .f32 hφ) (r : Fin 256) :
    multiReduction .add [1] S256 ex 0x00000000#32 reduces_S256x2048_S256 hφ hacc (ix1 r) = ∑ t : Fin 2048, ex (ix2 r t) := by
  refine (Ideal.multiReduction_add_single ex 0x00000000#32 reduces_S256x2048_S256 hφ hacc (ix1 r)).trans ?_
  exact Finset.sum_congr rfl fun t _ => congrArg ex (lift_row reduces_S256x2048_S256 r t)

/-- A column sum over the 256 rows. -/
theorem colsum_apply (cx : FVec Ideal S256x512 .f32) (hφ : FKind.Formats .f32)
    (hacc : (0x00000000#32 : BitVec 32) = FKind.add.neutral .f32 hφ) (d : Fin 512) :
    multiReduction .add [0] S512 cx 0x00000000#32 reduces_S256x512_S512 hφ hacc (ix1 d) = ∑ r : Fin 256, cx (ix2 r d) := by
  refine (Ideal.multiReduction_add_single cx 0x00000000#32 reduces_S256x512_S512 hφ hacc (ix1 d)).trans ?_
  exact Finset.sum_congr rfl fun r _ => congrArg cx (lift_col reduces_S256x512_S512 d r)

/-! ## One sub-chain -/

/-- ⟨query row r, key row t⟩. -/
def qscore (q : FVec Ideal S256x512 .f32) (kf : FVec Ideal S2048x512 .f32) (r : Fin 256) (t : Fin 2048) : EReal :=
  ∑ e : Fin 512, q (ix2 r e) * kf (ix2 t e)

/-- The maximum of query row `r`'s scores, from −∞. -/
def qmax (q : FVec Ideal S256x512 .f32) (kf : FVec Ideal S2048x512 .f32) (r : Fin 256) : EReal :=
  (Finset.univ : Finset (Fin 2048)).fold max negInf (fun t => qscore q kf r t)

/-- The unnormalised weight of key row `t` for query row `r`. -/
def qweight (q : FVec Ideal S256x512 .f32) (kf : FVec Ideal S2048x512 .f32) (r : Fin 256) (t : Fin 2048) : EReal :=
  Ideal.exp (qscore q kf r t - qmax q kf r)

/-- Context row `r` at lane `d`: the weighted sum of the values over the sum of the weights. -/
def qctx (q : FVec Ideal S256x512 .f32) (kf : FVec Ideal S2048x512 .f32) (vb : FVec Ideal S2048x512 .bf16) (r : Fin 256)
    (d : Fin 512) : EReal :=
  Ideal.div (∑ t : Fin 2048, qweight q kf r t * vb (ix2 t d)) (∑ t : Fin 2048, qweight q kf r t)

theorem expOf_apply (q : FVec Ideal S256x512 .f32) (kf : FVec Ideal S2048x512 .f32) (r : Fin 256) (t : Fin 2048) :
    expOf q kf (ix2 r t) = qweight q kf r t := by
  unfold expOf
  show Ideal.exp (scoresOf q kf (ix2 r t) - broadcastTo S256x2048 _ broadcasts_S256x1_S256x2048 (ix2 r t)) = _
  rw [broadcastTo_a1_ab_apply, shapeCast_a_a1_apply]
  refine (congrArg (fun z => Ideal.exp (scoresOf q kf (ix2 r t) - z)) (rowmax_apply (scoresOf q kf) _ _ r)).trans ?_
  unfold qweight qmax qscore
  simp only [scoresOf_apply]

theorem ctxOf_apply (q : FVec Ideal S256x512 .f32) (kf : FVec Ideal S2048x512 .f32) (vb : FVec Ideal S2048x512 .bf16)
    (r : Fin 256) (d : Fin 512) : ctxOf q kf vb (ix2 r d) = qctx q kf vb r d := by
  unfold ctxOf
  refine (divf_apply _ _ _).trans ?_
  rw [pv_apply, broadcastTo_a1_ab_apply, shapeCast_a_a1_apply]
  refine (congrArg (Ideal.div _) (rowsum_apply (expOf q kf) _ _ r)).trans ?_
  unfold qctx
  simp only [truncf_apply, expOf_apply]

/-- A sub-chain at lane `d`: the sum of its 256 context rows there. -/
theorem subchain_apply (q : FVec Ideal S256x512 .f32) (kf : FVec Ideal S2048x512 .f32) (vb : FVec Ideal S2048x512 .bf16)
    (d : Fin 512) : subchain q kf vb (ix2 (0 : Fin 1) d) = ∑ r : Fin 256, qctx q kf vb r d := by
  unfold subchain
  refine (shapeCast_a_1a_apply _ shapeCasts_S512_S1x512 0 d).trans ?_
  refine (colsum_apply _ _ _ d).trans ?_
  exact Finset.sum_congr rfl fun r _ => ctxOf_apply q kf vb r d

/-- When the query row, the keys and the values are rows of one batch entry `X`, the context row is the
    specification's. -/
theorem qctx_eq_ctxK (X : Fin 2048 → Fin 512 → EReal) (q : FVec Ideal S256x512 .f32) (kf : FVec Ideal S2048x512 .f32)
    (vb : FVec Ideal S2048x512 .bf16) (r : Fin 256) (s : Fin 2048) (d : Fin 512)
    (hq : ∀ e, q (ix2 r e) = X s e) (hk : ∀ t e, kf (ix2 t e) = X t e) (hv : ∀ t, vb (ix2 t d) = X t d) :
    qctx q kf vb r d = ctxK X s d := by
  unfold qctx qweight qmax qscore ctxK denom weight rowMax score
  simp only [hq, hk, hv]

/-! ## One run of the body -/

/-- The finish at lane `d`: the running output plus the four partial rows' sum over the sequence length. -/
theorem finish_apply (p0 p1 p2 p3 : FVec Ideal S1x512 .f32) (xo : FVec Ideal S1x1x512 .f32) (d : Fin 512) :
    finish p0 p1 p2 p3 xo (ix3 (0 : Fin 1) (0 : Fin 1) d)
      = xo (ix3 (0 : Fin 1) (0 : Fin 1) d)
        + Ideal.div (((p0 (ix2 (0 : Fin 1) d) + p1 (ix2 (0 : Fin 1) d)) + p2 (ix2 (0 : Fin 1) d)) + p3 (ix2 (0 : Fin 1) d)) seqLen := by
  unfold finish
  refine (shapeCast_ab_1ab_apply _ shapeCasts_S1x512_S1x1x512 0 0 d).trans ?_
  rw [addf_apply, divf_apply, addf_apply, addf_apply, addf_apply, broadcast_apply,
    shapeCast_1ab_ab_apply _ shapeCasts_S1x1x512_S1x512 0 d]
  rfl

/-- One run of the body on tile `qi` of a batch entry `X` adds the tile's pooled contribution to the running output. -/
theorem bodyOut_apply (X : Fin 2048 → Fin 512 → EReal) (i : grid0.Coords) (x0 : FVec Ideal S1x2048x512 .f32)
    (xs : FVec Ideal S2048x512 .bf16) (xo : FVec Ideal S1x1x512 .f32) (qi : Fin 2) (d : Fin 512)
    (hk : ∀ t e, k0_pay4 (F := Ideal) x0 (ix2 t e) = X t e) (hv : ∀ t, xs (ix2 t d) = X t d)
    (hq : ∀ (j : Fin 4) (r : Fin 256) (e : Fin 512), qmat (F := Ideal) i j x0 (ix2 r e) = X (row qi j r) e) :
    bodyOut (F := Ideal) i x0 xs xo (ix3 (0 : Fin 1) (0 : Fin 1) d) = xo (ix3 (0 : Fin 1) (0 : Fin 1) d) + tile X qi d := by
  unfold bodyOut
  rw [finish_apply, subchain_apply, subchain_apply, subchain_apply, subchain_apply]
  unfold tile chunk
  have h : ∀ (j : Fin 4), (∑ r : Fin 256, qctx (qmat (F := Ideal) i j x0) (k0_pay4 (F := Ideal) x0) xs r d) = ∑ r : Fin 256, ctxK X (row qi j r) d :=
    fun j => Finset.sum_congr rfl fun r _ => qctx_eq_ctxK X _ _ _ r (row qi j r) d (hq j r) hk hv
  rw [h 0, h 1, h 2, h 3]

end Cert.KernelIdeal.ChainValue

end
-- ==== Proof.KernelValue.lean ====
/-
  What the kernel's result array holds after the run, at the extended reals.

  The grid's point `t` works on batch entry `t / 2`, tile `t % 2`. The block the body finds is the whole entry
  (`xblk_apply`), its query rows are rows `1024·(t % 2) + 256·j + r` of the entry (`qmat_apply`). The output block of an
  entry is written back after its second tile only; by then it holds zero plus the first tile's contribution plus the
  second's, the value scratch having kept the entry's rows in between (`out_odd`): the specification's `pooledK`. So
  the result array [32, 1, 512] ends at `pooledK` of each entry (`final`), and the reshape after the call reads it
  at [32, 512] (`run`).
-/
import proofs.«427994_j68839735820744_3_alg».proof.Proof.ChainValue
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.KernelIdeal.Pieces Cert.KernelIdeal.ChainValue Cert.AttnPool

variable (m : (ℓ : Loc nD τ sig) → Buf (Elt Ideal) ℓ) (ρ : Dev nD → PrngReg)

/-- The argument array. -/
abbrev xarr (c : Dev nD) : FVec Ideal S32x2048x512 .f32 := m ((c : Thread nD τ).loc main_arg0)

/-- Batch entry `b` of the argument: 2048 rows of 512 features. -/
abbrev entry (c : Dev nD) (b : Fin 32) : Fin 2048 → Fin 512 → EReal := fun s e => xarr m c (ix3 b s e)

/-- The block the body finds at point `t`. -/
abbrev xblk (c : Dev nD) (t : Fin cfg0.N) : FVec Ideal S1x2048x512 .f32 := iblk m c 0 t

theorem lt64 (t : Fin cfg0.N) : t.val < 64 := lt_of_lt_of_eq t.isLt (show cfg0.N = 64 from N_0)

/-- The batch entry point `t` works on, -/
def batchOf (t : Fin cfg0.N) : Fin 32 := ⟨t.val / 2, by have := lt64 t; omega⟩
/-- and its tile. -/
def tileOf (t : Fin cfg0.N) : Fin 2 := ⟨t.val % 2, by omega⟩

/-- The printed index maps and the query rows' offsets, decided over the grid. -/
theorem idx_facts : ∀ t : Fin cfg0.N, win0_0.index t (0 : Fin 3) = t.val / 2 ∧ win0_0.index t (1 : Fin 3) = 0
    ∧ win0_0.index t (2 : Fin 3) = 0 ∧ win0_1.index t (0 : Fin 3) = t.val / 2 ∧ win0_1.index t (1 : Fin 3) = 0
    ∧ win0_1.index t (2 : Fin 3) = 0 :=
  (by decide +kernel : ∀ t : Fin grid0.N, _)

theorem off_facts : ∀ (t : Fin cfg0.N) (j : Fin 4),
    k0_off1 (grid0.coords t) (BitVec.ofNat 32 (256 * j.val)) = ![0, (t.val % 2) * 1024 + 256 * j.val, 0] :=
  (by decide +kernel : ∀ (t : Fin grid0.N) (j : Fin 4), _)

/-- The block at point `t` is batch entry `t / 2`. -/
theorem xblk_apply (c : Dev nD) (t : Fin cfg0.N) (s : Fin 2048) (e : Fin 512) :
    xblk m c t (ix3 (0 : Fin 1) s e) = entry m c (batchOf t) s e := by
  obtain ⟨e0, e1, e2, -, -, -⟩ := idx_facts t
  show V m c main_arg0 (((cfg0.win 0).blk t).view.emb (ix3 (0 : Fin 1) s e)) = m ((c : Thread nD τ).loc main_arg0) (ix3 (batchOf t) s e)
  refine congrArg (m ((c : Thread nD τ).loc main_arg0)) (funext fun a => Fin.ext ?_)
  match a with
  | ⟨0, _⟩ => show win0_0.index t (0 : Fin 3) * 1 + 1 * 0 = t.val / 2; omega
  | ⟨1, _⟩ => show win0_0.index t (1 : Fin 3) * 2048 + 1 * s.val = s.val; omega
  | ⟨2, _⟩ => show win0_0.index t (2 : Fin 3) * 512 + 1 * e.val = e.val; omega

/-- The keys at point `t` are the entry's rows. -/
theorem keys_apply (c : Dev nD) (t : Fin cfg0.N) (s : Fin 2048) (e : Fin 512) :
    k0_pay4 (F := Ideal) (xblk m c t) (ix2 s e) = entry m c (batchOf t) s e := by
  unfold k0_pay4
  exact (shapeCast_1ab_ab_apply _ shapeCasts_S1x2048x512_S2048x512 s e).trans (xblk_apply m c t s e)

/-- The rows the first tile stores for the second product are the entry's rows. -/
theorem values_apply (c : Dev nD) (t : Fin cfg0.N) (s : Fin 2048) (e : Fin 512) :
    k0_pay3 (F := Ideal) (xblk m c t) (ix2 s e) = entry m c (batchOf t) s e := by
  unfold k0_pay3
  rw [shapeCast_self, truncf_apply]
  exact (shapeCast_1ab_ab_apply _ shapeCasts_S1x2048x512_S2048x512 s e).trans (xblk_apply m c t s e)

/-- Query row `r` of sub-chain `j` at point `t` is row `1024·(t % 2) + 256·j + r` of the entry. -/
theorem qmat_apply (c : Dev nD) (t : Fin cfg0.N) (j : Fin 4) (r : Fin 256) (e : Fin 512) :
    qmat (F := Ideal) (grid0.coords t) j (xblk m c t) (ix2 r e) = entry m c (batchOf t) (row (tileOf t) j r) e := by
  refine (shapeCast_1ab_ab_apply _ shapeCasts_S1x256x512_S256x512 r e).trans ?_
  have hoff := off_facts t j
  have hi : (Rect.unit (s := S1x2048x512) (k0_off1 (grid0.coords t) (BitVec.ofNat 32 (256 * j.val))) S1x256x512.size
      (k0_off1_inb (grid0.coords t) j)).idx (ix3 (0 : Fin 1) r e) = ix3 (0 : Fin 1) (row (tileOf t) j r) e := by
    funext a; apply Fin.ext
    match a with
    | ⟨0, _⟩ =>
      show k0_off1 (grid0.coords t) (BitVec.ofNat 32 (256 * j.val)) 0 + 1 * 0 = 0
      rw [hoff]; rfl
    | ⟨1, _⟩ =>
      show k0_off1 (grid0.coords t) (BitVec.ofNat 32 (256 * j.val)) 1 + 1 * r.val = (t.val % 2) * 1024 + j.val * 256 + r.val
      rw [hoff]
      show (t.val % 2) * 1024 + 256 * j.val + 1 * r.val = _
      omega
    | ⟨2, _⟩ =>
      show k0_off1 (grid0.coords t) (BitVec.ofNat 32 (256 * j.val)) 2 + 1 * e.val = e.val
      rw [hoff]
      show 0 + 1 * e.val = e.val
      omega
  show xblk m c t ((Rect.unit (s := S1x2048x512) (k0_off1 (grid0.coords t) (BitVec.ofNat 32 (256 * j.val))) S1x256x512.size
      (k0_off1_inb (grid0.coords t) j)).idx (ix3 (0 : Fin 1) r e)) = _
  rw [hi]
  exact xblk_apply m c t _ e

/-- The zero block the first tile stores. -/
theorem zero_apply (d : Fin 512) : k0_pay2 (F := Ideal) (ix3 (0 : Fin 1) (0 : Fin 1) d) = 0 := by
  unfold k0_pay2
  refine (shapeCast_ab_1ab_apply _ shapeCasts_S1x512_S1x1x512 0 0 d).trans ?_
  rw [broadcast_apply]
  exact Ideal.ofBits_zero_f32

/-! ## The two tiles of an entry -/

/-- After an entry's second tile the output block holds zero, plus the first tile's contribution, plus the second's. -/
theorem out_odd (c : Dev nD) (t : Fin cfg0.N) (h1 : t.val % 2 = 1) (d : Fin 512) :
    ((outsAt0 m c t.val t.isLt).1 : FVec Ideal S1x1x512 .f32) (ix3 (0 : Fin 1) (0 : Fin 1) d)
      = pooledK (entry m c (batchOf t)) d := by
  have hN := lt64 t
  have hB : ¬t.val % 2 = 0 := by omega
  -- the point before: the entry's first tile
  obtain ⟨t', ht'⟩ : ∃ t' : Fin cfg0.N, t'.val = t.val - 1 := ⟨⟨t.val - 1, Nat.lt_of_le_of_lt (Nat.sub_le _ _) t.isLt⟩, rfl⟩
  have hA : t'.val % 2 = 0 := by omega
  have hb : batchOf t' = batchOf t := Fin.ext (by show t'.val / 2 = t.val / 2; omega)
  have hq1 : tileOf t = (1 : Fin 2) := Fin.ext (by show t.val % 2 = 1; exact h1)
  have hq0 : tileOf t' = (0 : Fin 2) := Fin.ext (by show t'.val % 2 = 0; exact hA)
  have eprev : outsAt0 m c (t.val - 1) (Nat.lt_of_le_of_lt (Nat.sub_le _ _) t.isLt) = outsAt0 m c t'.val t'.isLt := by
    congr 1; exact ht'.symm
  rw [outsAt0_B m c t hB]
  dsimp only
  rw [out_B, eprev, outsAt0_A m c t' hA]
  dsimp only
  rw [out_A, sout_A]
  -- the second tile over what the first left
  refine (bodyOut_apply (entry m c (batchOf t)) (grid0.coords t) (xblk m c t) (k0_pay3 (F := Ideal) (xblk m c t'))
    (bodyOut (F := Ideal) (grid0.coords t') (xblk m c t') (k0_pay3 (F := Ideal) (xblk m c t')) (k0_pay2 (F := Ideal))) 1 d
    (fun s e => keys_apply m c t s e) (fun s => by rw [values_apply, hb])
    (fun j r e => by rw [qmat_apply, hq1])).trans ?_
  -- the first tile over the zero block
  rw [bodyOut_apply (entry m c (batchOf t)) (grid0.coords t') (xblk m c t') (k0_pay3 (F := Ideal) (xblk m c t')) (k0_pay2 (F := Ideal)) 0 d
    (fun s e => by rw [keys_apply, hb]) (fun s => by rw [values_apply, hb])
    (fun j r e => by rw [qmat_apply, hq0, hb]), zero_apply]
  rfl

/-! ## The result array -/

/-- What the [32, 1, 512] result array ends holding. -/
abbrev G (c : Dev nD) : FVec Ideal S32x1x512 .f32 := fun i => pooledK (entry m c (i 0)) (i 2)

/-- What a flushing point writes back is its block of `G`. -/
theorem flushed_eq (c : Dev nD) (t : Fin cfg0.N) (hf : (cfg0.win 1).flush t = true) :
    (dats m 0 c).flushed 1 t = ((cfg0.win 1).blk t).view.read (Elt Ideal) (G m c) := by
  have h1 : t.val % 2 = 1 := (flush0_1 t).mp hf
  obtain ⟨-, -, -, e0, e1, e2⟩ := idx_facts t
  have hN := lt64 t
  show (cfg0.win 1).cut (grid0.coords t) ((dats m 0 c).after 1 t) = _
  rw [after0_1]
  funext j
  obtain ⟨j0, j1, j2, rfl⟩ : ∃ (a : Fin 1) (b : Fin 1) (d : Fin 512), j = ix3 a b d := ⟨j 0, j 1, j 2, eq_ix3 j⟩
  obtain rfl : j0 = 0 := Subsingleton.elim _ _
  obtain rfl : j1 = 0 := Subsingleton.elim _ _
  show ((outsAt0 m c t.val t.isLt).1 : FVec Ideal S1x1x512 .f32) (ix3 (0 : Fin 1) (0 : Fin 1) j2)
    = G m c (((cfg0.win 1).blk t).view.emb (ix3 (0 : Fin 1) (0 : Fin 1) j2))
  have hemb : ((cfg0.win 1).blk t).view.emb (ix3 (0 : Fin 1) (0 : Fin 1) j2) = ix3 (batchOf t) (0 : Fin 1) j2 := by
    funext a; apply Fin.ext
    match a with
    | ⟨0, _⟩ => show win0_1.index t (0 : Fin 3) * 1 + 1 * 0 = t.val / 2; omega
    | ⟨1, _⟩ => show win0_1.index t (1 : Fin 3) * 1 + 1 * 0 = 0; omega
    | ⟨2, _⟩ => show win0_1.index t (2 : Fin 3) * 512 + 1 * j2.val = j2.val; omega
  rw [hemb]
  exact out_odd m c t h1 j2

/-- Every index of the result array is in the block of its entry's second tile. -/
theorem cover (c : Dev nD) (i : S32x1x512.Idx) :
    ∃ t : Fin cfg0.N, (cfg0.win 1).flush t = true ∧ i ∈ ((cfg0.win 1).blk t).view.set := by
  have hi0 : (i 0).val < 32 := (i 0).isLt
  have hi1 : (i 1).val < 1 := (i 1).isLt
  have hi2 : (i 2).val < 512 := (i 2).isLt
  let t : Fin cfg0.N := ⟨2 * (i 0).val + 1, by rw [show cfg0.N = 64 from N_0]; omega⟩
  have htv : t.val = 2 * (i 0).val + 1 := rfl
  obtain ⟨-, -, -, e0, e1, e2⟩ := idx_facts t
  refine ⟨t, (flush0_1 t).mpr (by omega), ?_⟩
  show i ∈ ((View.whole main_v0).slice (win0_1.rect t)).set
  rw [View.set_slice_whole, Rect.mem_set_unit]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 1 ≤ (i 1).val ∧ (i 1).val < win0_1.index t (1 : Fin 3) * 1 + 1; omega
  | ⟨2, _⟩ => show win0_1.index t (2 : Fin 3) * 512 ≤ (i 2).val ∧ (i 2).val < win0_1.index t (2 : Fin 3) * 512 + 512; omega

/-- So the result array ends at `G`. -/
theorem final (c : Dev nD) : (dats m 0 c).arrAt 1 cfg0.N = G m c :=
  (dats m 0 c).arrAt_eq_of_cover 1 (G m c) (flushed_eq m c) (cover c)

/-! ## The reshape after the call, and the run -/

/-- The kernel's result, [32, 512]: each batch entry's pooled row. -/
abbrev result (c : Dev nD) : FVec Ideal S32x512 .f32 := fun i => pooledK (entry m c (i 0)) (i 1)

/-- The reshape [32, 1, 512] → [32, 512] of the result array is `result`. -/
theorem tail_eq (c : Dev nD) :
    Pipeline.afterTail₀ cfgs (dats m) 0 (V0 m) [hostOps1] c main_v1 = result m c := by
  unfold Pipeline.afterTail₀
  show StableHlo.after hostOps1 _ (Proc.devRef .tc main_v1) = _
  after_results
  funext i
  obtain ⟨b, d, rfl⟩ : ∃ (b : Fin 32) (d : Fin 512), i = ix2 b d := ⟨i 0, i 1, eq_ix2 i⟩
  show shapeCast S32x512 (Pipeline.withArrays (cfgs 0).spec c (V0 m c) (fun w => (dats m 0 c).arrAt w (cfgs 0).N)
    (Proc.devRef .tc main_v0)) shapeCasts_S32x1x512_S32x512 (ix2 b d) = _
  rw [show Pipeline.withArrays (cfgs 0).spec c (V0 m c) (fun w => (dats m 0 c).arrAt w (cfgs 0).N) (Proc.devRef .tc main_v0)
      = G m c from (Pipeline.withArrays_arr spec0 launch0.win.arr_inj c _ _ 1).trans (final m c)]
  refine (shapeCast_apply (G m c) shapeCasts_S32x1x512_S32x512 (ix2 b d) (ix3 b (0 : Fin 1) d) ?_).trans rfl
  rw [Shape.rowMajor_val_three, Shape.rowMajor_val_two]
  show (b.val * 1 + 0) * 512 + d.val = b.val * 512 + d.val
  omega

/-- `main_v1` is an unscoped buffer that is no window's array. -/
theorem v1_rest : main_v1 ∈ Pipeline.restRefs sig (cfgs 0).spec :=
  Pipeline.mem_restRefs_of main_v1 rfl (fun w => by fin_cases w <;> decide)

/-- The run, read: the result at each entry's pooled row, the argument unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0) :=
  (θ_run defs _ _).mono (fun _ h c => ⟨((h c).2 main_v1 v1_rest).trans (tail_eq m c),
      ((h c).1 0).trans (((dats m 0 c).arrAt_in 0 rfl _).trans ((A_eq m c 0).trans (V_main_arg0 m c)))⟩)
    (run_main m ρ)

end Cert.KernelIdeal.KernelValue

end
-- ==== Proof.RefValue.lean ====
/-
  The reference's result read at an index.

  For one batch entry `b` write `X s e` for the entry's row `s`, feature `e`.  Stage by stage the reference's
  arrays, read at explicit coordinates, are the quantities of the specification: the scores ⟨row s, row t⟩, their
  row maxima from −∞, the weights exp (score − maximum), the row sums of the weights, the weights divided by their
  row sum, the context rows, the sum of the context rows, and that sum over the sequence length.
-/
import proofs.«427994_j68839735820744_3_alg».proof.Proof.Gen.ReferenceIdeal.Run
import proofs.«427994_j68839735820744_3_alg».proof.Proof.Gen.ReferenceIdeal.Read
import proofs.«427994_j68839735820744_3_alg».proof.Proof.Spec
import Idealize.ShloMosaic.Lib.ValueIdx
import Idealize.ShloMosaic.PureOps.Ideal.Laws
import Idealize.ShloMosaic.PureOps.Reduce

noncomputable section

namespace Cert.AttnPool

open Idealize.ShloMosaic Idealize.ShloMosaic.ValueIdx Cert.ReferenceIdeal Cert.ReferenceIdeal.Gen Cert.ReferenceIdeal.Read

/-- Batch entry `b` of the input: its 2048 rows of 512 features. -/
abbrev entry (x0 : (⟨S32x2048x512, .f32⟩ : BufTy).Contents (Elt Ideal)) (b : Fin 32) : Fin 2048 → Fin 512 → EReal :=
  fun s e => x0 (ix3 b s e)

/-- −∞ is the identity of the maximum. -/
theorem max_negInf (y : EReal) : max negInf y = y := by
  show max (Ideal.ofBits .f32 0xFF800000#32) y = y
  simp [Ideal.ofBits, Ideal.ieee]

/-- The scores: element (b, s, t) of the first product is ⟨row s, row t⟩ of entry `b`. -/
theorem v0_at (x0 : (⟨S32x2048x512, .f32⟩ : BufTy).Contents (Elt Ideal)) (b : Fin 32) (s t : Fin 2048) :
    val_main_v0 (F := Ideal) x0 (ix3 b s t) = score (entry x0 b) s t := by
  rw [val_main_v0_apply]
  unfold score
  refine Finset.sum_congr rfl fun k _ => ?_
  have el : lidx_main_v0 (ix3 b s t) k = ix3 b s k :=
    funext fun a => Fin.ext (by match a with | ⟨0, _⟩ => rfl | ⟨1, _⟩ => rfl | ⟨2, _⟩ => rfl)
  have er : ridx_main_v0 (ix3 b s t) k = ix3 b t k :=
    funext fun a => Fin.ext (by match a with | ⟨0, _⟩ => rfl | ⟨1, _⟩ => rfl | ⟨2, _⟩ => rfl)
  rw [el, er]

/-- The index (b, s) of the row maxima with coordinate `k` put back on the reduced axis is (b, s, k). -/
theorem lift_ix2 (h : S32x2048x2048.Reduces [2] S32x2048) (b : Fin 32) (s : Fin 2048) (k : Fin (S32x2048x2048.size 2)) :
    h.lift (ix2 b s) k = ix3 b s (⟨k.val, k.isLt⟩ : Fin 2048) :=
  funext fun c => Fin.ext (by match c with | ⟨0, _⟩ => rfl | ⟨1, _⟩ => rfl | ⟨2, _⟩ => rfl)

/-- The row maxima: element (b, s) of the maximum-reduce is the maximum over `t` of the scores of row `s`, from −∞. -/
theorem v1_at (x0 : (⟨S32x2048x512, .f32⟩ : BufTy).Contents (Elt Ideal)) (b : Fin 32) (s : Fin 2048) :
    val_main_v1 (F := Ideal) x0 (ix2 b s) = rowMax (entry x0 b) s := by
  have hr : S32x2048x2048.Reduces [2] S32x2048 := by decide
  unfold val_main_v1
  rw [Host.reduce_eq_fold_single FloatOps.maximumf _ _ reducesTo_S32x2048x2048_S32x2048_d2 hr h_S_]
  have hf : (val_main_v0 (F := Ideal) x0 ∘ hr.lift (ix2 b s)) = fun t : Fin 2048 => score (entry x0 b) s t :=
    funext fun k => (congrArg (val_main_v0 (F := Ideal) x0) (lift_ix2 hr b s k)).trans (v0_at x0 b s ⟨k.val, k.isLt⟩)
  unfold rowMax
  exact congrArg (fun f => Finset.fold max negInf f (Finset.univ : Finset (Fin 2048))) hf

/-- The maximum with a −∞ array changes nothing. -/
theorem v3_at (x0 : (⟨S32x2048x512, .f32⟩ : BufTy).Contents (Elt Ideal)) (b : Fin 32) (s : Fin 2048) :
    val_main_v3 (F := Ideal) x0 (ix2 b s) = rowMax (entry x0 b) s := by
  rw [val_main_v3_apply, val_main_v2_apply, val_main_cst_0_apply, v1_at]
  exact max_negInf _

/-- The row maxima broadcast along the columns. -/
theorem v5_at (x0 : (⟨S32x2048x512, .f32⟩ : BufTy).Contents (Elt Ideal)) (b : Fin 32) (s t : Fin 2048) :
    val_main_v5 (F := Ideal) x0 (ix3 b s t) = rowMax (entry x0 b) s := by
  rw [val_main_v5_apply, val_main_v4_apply]
  have e : idx_main_v4 (idx_main_v5 (ix3 b s t)) = ix2 b s :=
    funext fun a => Fin.ext (by match a with | ⟨0, _⟩ => rfl | ⟨1, _⟩ => rfl)
  rw [e, v3_at]

/-- The weights: exp (score − row maximum). -/
theorem v7_at (x0 : (⟨S32x2048x512, .f32⟩ : BufTy).Contents (Elt Ideal)) (b : Fin 32) (s t : Fin 2048) :
    val_main_v7 (F := Ideal) x0 (ix3 b s t) = weight (entry x0 b) s t := by
  rw [val_main_v7_apply, val_main_v6_apply, Ideal.hostUnary_exp_def, Ideal.subf_def, v0_at, v5_at]
  rfl

/-- The denominators: the sum over `t` of the weights of row `s`, from zero. -/
theorem v8_at (x0 : (⟨S32x2048x512, .f32⟩ : BufTy).Contents (Elt Ideal)) (b : Fin 32) (s : Fin 2048) :
    val_main_v8 (F := Ideal) x0 (ix2 b s) = denom (entry x0 b) s := by
  rw [val_main_v8_apply, val_main_cst_1_apply, Ideal.ofBits_def, Ideal.ofBits_zero_f32, zero_add]
  unfold denom
  refine Finset.sum_congr rfl fun k _ => ?_
  have e : idx_main_v8 (ix2 b s) k = ix3 b s k :=
    funext fun a => Fin.ext (by match a with | ⟨0, _⟩ => rfl | ⟨1, _⟩ => rfl | ⟨2, _⟩ => rfl)
  rw [e, v7_at]

/-- The denominators broadcast along the columns. -/
theorem v10_at (x0 : (⟨S32x2048x512, .f32⟩ : BufTy).Contents (Elt Ideal)) (b : Fin 32) (s t : Fin 2048) :
    val_main_v10 (F := Ideal) x0 (ix3 b s t) = denom (entry x0 b) s := by
  rw [val_main_v10_apply, val_main_v9_apply]
  have e : idx_main_v9 (idx_main_v10 (ix3 b s t)) = ix2 b s :=
    funext fun a => Fin.ext (by match a with | ⟨0, _⟩ => rfl | ⟨1, _⟩ => rfl)
  rw [e, v8_at]

/-- The normalised weights: each weight over its row's denominator. -/
theorem v11_at (x0 : (⟨S32x2048x512, .f32⟩ : BufTy).Contents (Elt Ideal)) (b : Fin 32) (s t : Fin 2048) :
    val_main_v11 (F := Ideal) x0 (ix3 b s t) = Ideal.div (weight (entry x0 b) s t) (denom (entry x0 b) s) := by
  rw [val_main_v11_apply, Ideal.hostDivf_def, v7_at, v10_at]

/-- The context rows: the normalised weights of row `s` against column `e` of the values. -/
theorem v12_at (x0 : (⟨S32x2048x512, .f32⟩ : BufTy).Contents (Elt Ideal)) (b : Fin 32) (s : Fin 2048) (e : Fin 512) :
    val_main_v12 (F := Ideal) x0 (ix3 b s e) = ctxR (entry x0 b) s e := by
  rw [val_main_v12_apply]
  unfold ctxR
  refine Finset.sum_congr rfl fun t _ => ?_
  have el : lidx_main_v12 (ix3 b s e) t = ix3 b s t :=
    funext fun a => Fin.ext (by match a with | ⟨0, _⟩ => rfl | ⟨1, _⟩ => rfl | ⟨2, _⟩ => rfl)
  have er : ridx_main_v12 (ix3 b s e) t = ix3 b t e :=
    funext fun a => Fin.ext (by match a with | ⟨0, _⟩ => rfl | ⟨1, _⟩ => rfl | ⟨2, _⟩ => rfl)
  rw [el, er, v11_at]

/-- The pooled sum: the sum over `s` of the context rows, from zero. -/
theorem v13_at (x0 : (⟨S32x2048x512, .f32⟩ : BufTy).Contents (Elt Ideal)) (b : Fin 32) (d : Fin 512) :
    val_main_v13 (F := Ideal) x0 (ix2 b d) = ∑ s : Fin 2048, ctxR (entry x0 b) s d := by
  rw [val_main_v13_apply, val_main_cst_2_apply, Ideal.ofBits_def, Ideal.ofBits_zero_f32, zero_add]
  refine Finset.sum_congr rfl fun k _ => ?_
  have e : idx_main_v13 (ix2 b d) k = ix3 b k d :=
    funext fun a => Fin.ext (by match a with | ⟨0, _⟩ => rfl | ⟨1, _⟩ => rfl | ⟨2, _⟩ => rfl)
  rw [e, v12_at]

open Idealize.ShloMosaic Idealize.ShloMosaic.ValueIdx Cert.ReferenceIdeal in
/-- The reference's result at (b, d) is the pooled context of batch entry `b` at feature `d`. -/
theorem ref_value (x0 : (⟨S32x2048x512, .f32⟩ : BufTy).Contents (Elt Ideal)) (b : Fin 32) (d : Fin 512) :
    Cert.ReferenceIdeal.Read.val_main_v15 (F := Ideal) x0 (ix2 b d) = pooledR (fun s e => x0 (ix3 b s e)) d := by
  rw [val_main_v15_apply, Ideal.hostDivf_def, v13_at, val_main_v14_apply, val_main_cst_3_apply, Ideal.ofBits_def]
  rfl

end Cert.AttnPool

end
-- ==== Proof.Law.lean ====
/-
  The law that joins the two programs: for finite inputs the kernel's pooled value is the reference's.

  Every quantity of the specification is, on finite inputs, the coercion of a real number: the scores are finite
  sums of products, the row maximum is a maximum of finitely many (and at least one) reals, the weights are real
  exponentials and hence positive, so the denominator is a positive real and both divisions are real divisions.
  In the reals the two context rows agree by distributing the reciprocal of the denominator over the sum, and the
  two poolings agree because the 2048 rows are exactly the rows `row q j r`, each once.
-/
import proofs.«427994_j68839735820744_3_alg».proof.Proof.Spec

noncomputable section

namespace Cert.AttnPool

open Idealize.ShloMosaic

/-- The pattern `0xFF800000` (sign 1, exponent all ones, fraction 0) denotes −∞. -/
theorem negInf_eq : negInf = ⊥ := by
  simp [negInf, Ideal.ofBits, Ideal.ieee]

/-- The pattern `0x45000000` (sign 0, exponent 138, fraction 0) denotes 2^23 · 2^(138 − 127 − 23) = 2048. -/
theorem seqLen_eq : seqLen = ((2048 : ℝ) : EReal) := by
  simp [seqLen, Ideal.ofBits, Ideal.ieee]
  rw [← EReal.coe_mul]
  congr 1
  norm_num

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A fold of `max` from −∞ over a nonempty finite family of reals is a real. -/
theorem fold_max_real {ι : Type*} (s : Finset ι) (hs : s.Nonempty) (f : ι → ℝ) :
    ∃ m : ℝ, s.fold max (⊥ : EReal) (fun t => (f t : EReal)) = (m : EReal) := by
  classical
  induction hs using Finset.Nonempty.cons_induction with
  | singleton a => exact ⟨f a, by simp⟩
  | cons a s ha hs ih =>
    obtain ⟨m, hm⟩ := ih
    refine ⟨max (f a) m, ?_⟩
    rw [Finset.fold_cons, hm]
    exact (EReal.coe_strictMono.monotone.map_max).symm

/-- On finite inputs the kernel's and the reference's context entries are one and the same real number:
    with `w t = exp (score s t − rowMax s) > 0` and `D = ∑ t, w t > 0`,
    `(∑ t, w t · x t d) · D⁻¹ = ∑ t, (w t · D⁻¹) · x t d`. -/
theorem ctx_real (X : Fin 2048 → Fin 512 → EReal) (hfin : ∀ s d, ∃ r : ℝ, X s d = (r : EReal))
    (s : Fin 2048) (d : Fin 512) :
    ∃ c : ℝ, ctxK X s d = (c : EReal) ∧ ctxR X s d = (c : EReal) := by
  choose xr hxr using hfin
  -- the scores are real
  have hscore : ∀ t, score X s t = ((∑ e, xr s e * xr t e : ℝ) : EReal) := by
    intro t
    rw [score, coe_sum]
    refine Finset.sum_congr rfl (fun e _ => ?_)
    rw [hxr, hxr, EReal.coe_mul]
  -- the row maximum is real
  obtain ⟨m, hm⟩ : ∃ m : ℝ, rowMax X s = (m : EReal) := by
    rw [rowMax, negInf_eq]
    simp only [hscore]
    exact fold_max_real _ Finset.univ_nonempty _
  -- the weights are real exponentials
  have hweight : ∀ t, weight X s t = ((Real.exp ((∑ e, xr s e * xr t e) - m) : ℝ) : EReal) := by
    intro t
    rw [weight, hscore, hm, ← EReal.coe_sub, Ideal.exp_coe]
  -- the denominator is a positive real
  have hdenom : denom X s = ((∑ t, Real.exp ((∑ e, xr s e * xr t e) - m) : ℝ) : EReal) := by
    rw [denom, coe_sum]
    exact Finset.sum_congr rfl (fun t _ => hweight t)
  have hDpos : 0 < ∑ t : Fin 2048, Real.exp ((∑ e, xr s e * xr t e) - m) :=
    Finset.sum_pos (fun t _ => Real.exp_pos _) Finset.univ_nonempty
  refine ⟨(∑ t, Real.exp ((∑ e, xr s e * xr t e) - m) * xr t d) *
      (1 / ∑ t, Real.exp ((∑ e, xr s e * xr t e) - m)), ?_, ?_⟩
  · have hnum : ∑ t, weight X s t * X t d =
        ((∑ t, Real.exp ((∑ e, xr s e * xr t e) - m) * xr t d : ℝ) : EReal) := by
      rw [coe_sum]
      refine Finset.sum_congr rfl (fun t _ => ?_)
      rw [hweight, hxr, EReal.coe_mul]
    rw [ctxK, hdenom, Ideal.div_coe hDpos.ne', hnum, EReal.coe_mul]
  · rw [ctxR, Finset.sum_mul, coe_sum]
    refine Finset.sum_congr rfl (fun t _ => ?_)
    rw [hdenom, Ideal.div_coe hDpos.ne', hweight, hxr, ← EReal.coe_mul, ← EReal.coe_mul]
    congr 1
    ring

/-- The rows `row q j r` enumerate `Fin 2048`, each once: `s = (s / 1024) · 1024 + (s % 1024 / 256) · 256 + s % 256`. -/
def rowEquiv : Fin 2 × Fin 4 × Fin 256 ≃ Fin 2048 where
  toFun p := row p.1 p.2.1 p.2.2
  invFun s := (⟨s.val / 1024, by omega⟩, ⟨s.val % 1024 / 256, by omega⟩, ⟨s.val % 256, by omega⟩)
  left_inv := by
    rintro ⟨q, j, r⟩
    simp only [row, Prod.mk.injEq]
    refine ⟨Fin.ext ?_, Fin.ext ?_, Fin.ext ?_⟩ <;> simp only [] <;> omega
  right_inv := by
    intro s
    simp only [row]
    exact Fin.ext (by simp only []; omega)

/-- A sum over all 2048 rows, regrouped by tile, chunk and row within the chunk. -/
theorem sum_rows (c : Fin 2048 → ℝ) :
    ∑ s, c s = ∑ q : Fin 2, ∑ j : Fin 4, ∑ r : Fin 256, c (row q j r) := by
  rw [← Equiv.sum_comp rowEquiv c, Fintype.sum_prod_type]
  refine Finset.sum_congr rfl (fun q _ => ?_)
  rw [Fintype.sum_prod_type]
  rfl

theorem pooled_eq (X : Fin 2048 → Fin 512 → EReal) (hfin : ∀ s d, ∃ r : ℝ, X s d = (r : EReal)) (d : Fin 512) :
    pooledK X d = pooledR X d := by
  choose c hcK hcR using fun s => ctx_real X hfin s d
  -- each chunk is the real sum of its 256 context entries
  have hchunk : ∀ q j, chunk X q j d = ((∑ r : Fin 256, c (row q j r) : ℝ) : EReal) := by
    intro q j
    rw [chunk, coe_sum]
    exact Finset.sum_congr rfl (fun r _ => hcK _)
  -- each tile is a real
  have htile : ∀ q, tile X q d =
      ((((((∑ r : Fin 256, c (row q 0 r)) + ∑ r : Fin 256, c (row q 1 r)) + ∑ r : Fin 256, c (row q 2 r)) +
        ∑ r : Fin 256, c (row q 3 r)) * (1 / 2048) : ℝ) : EReal) := by
    intro q
    rw [tile, seqLen_eq, Ideal.div_coe (by norm_num), hchunk, hchunk, hchunk, hchunk,
      ← EReal.coe_add, ← EReal.coe_add, ← EReal.coe_add, ← EReal.coe_mul]
  -- the reference's pooled value is a real
  have hR : pooledR X d = (((∑ s, c s) * (1 / 2048) : ℝ) : EReal) := by
    have hsum : ∑ s, ctxR X s d = ((∑ s, c s : ℝ) : EReal) := by
      rw [coe_sum]
      exact Finset.sum_congr rfl (fun s _ => hcR s)
    rw [pooledR, seqLen_eq, Ideal.div_coe (by norm_num), hsum, EReal.coe_mul]
  rw [hR, pooledK, htile, htile, zero_add, ← EReal.coe_add, sum_rows, Fin.sum_univ_two, Fin.sum_univ_four,
    Fin.sum_univ_four]
  congr 1
  ring

end Cert.AttnPool

end
-- ==== Proof.Finite.lean ====
/-
  What the precondition gives: where `finite_inputs` holds, every entry of the argument is a real number — its
  absolute value is below +∞, so it is neither infinity.
-/
import proofs.«427994_j68839735820744_3_alg».proof.Pre_finite_inputs
import proofs.«427994_j68839735820744_3_alg».proof.Proof.Gen.Pre_finite_inputs
import Idealize.ShloMosaic.Lib.ReduceAll
import Idealize.ShloMosaic.Lib.ValueIdx
import Idealize.ShloMosaic.PureOps.Ideal.Laws

noncomputable section

namespace Cert.AttnPool

open Idealize.ShloMosaic

instance : Subsingleton Cert.Pre_finite_inputs.S_.Idx := ⟨fun a b => funext fun d => d.elim0⟩

/-- The f32 pattern the precondition compares against is +∞. -/
theorem ofBits_posInf : Ideal.ofBits .f32 0x7F800000#32 = (⊤ : EReal) := by simp [Ideal.ofBits, Ideal.ieee]

/-- Where the precondition holds, every entry of the argument is a real number. -/
theorem finite_of_pre (x : FVec Ideal Cert.Pre_finite_inputs.S32x2048x512 .f32)
    (h : Cert.Pre_finite_inputs.fn (F := Ideal) x = fun _ => 1#1) (i : Cert.Pre_finite_inputs.S32x2048x512.Idx) :
    ∃ r : ℝ, x i = (r : EReal) := by
  have h0 := congrFun h ValueIdx.ix0
  dsimp only [Cert.Pre_finite_inputs.fn] at h0
  have hi := Host.reduce_andi_all _ _ _ _ _ h0 i
  have hc : Ideal.cmp .olt (max (x i) (-(x i))) (Ideal.ofBits .f32 0x7F800000#32) = 1#1 := hi
  rw [ofBits_posInf] at hc
  have hlt : max (x i) (-(x i)) < (⊤ : EReal) := by
    by_contra hn
    simp [Ideal.cmp, hn] at hc
  generalize x i = y at hlt ⊢
  induction y using EReal.rec with
  | bot => exact absurd hlt (by simp)
  | top => exact absurd hlt (by simp)
  | coe r => exact ⟨r, rfl⟩

end Cert.AttnPool

end
-- ==== Proof.lean ====
/-
  Unscaled self-attention with queries, keys and values all the same array, mean-pooled over the sequence: a
  kernel over a [32, 2] grid (batch entry, query tile) against the plain softmax reference, over the extended reals.

  Both programs compute, for each batch entry X (2048 rows of 512 features) and lane d,
      (1 / 2048) · ∑ₛ ∑ₜ softmax(X Xᵀ)ₛₜ · X(t, d).
  The reference normalises the weights of a row and then multiplies them into the values; the kernel multiplies the
  unnormalised weights into the values and divides the product row by the row's sum of weights, 256 rows at a time,
  pools each tile of 1024 rows, divides by 2048 and accumulates the two tiles of an entry into one output block.
  On finite inputs every row's denominator is a positive real, so the two orders of division agree, and the pooled
  sums agree by regrouping the 2048 rows; the precondition supplies the finiteness.

  The kernel's result array is read off its frame run (`KernelValue.run`), the reference's off its run and the
  read-at-an-index lemmas (`ref_value`); `pooled_eq` joins them.
-/
import proofs.«427994_j68839735820744_3_alg».proof.Defs
import proofs.«427994_j68839735820744_3_alg».proof.Proof.Gen.Kernel
import proofs.«427994_j68839735820744_3_alg».proof.Proof.Gen.Kernel.Skeleton
import proofs.«427994_j68839735820744_3_alg».proof.Proof.Gen.Kernel.Launch
import proofs.«427994_j68839735820744_3_alg».proof.Proof.Gen.Kernel.Points
import proofs.«427994_j68839735820744_3_alg».proof.Proof.Gen.Kernel.Frame
import proofs.«427994_j68839735820744_3_alg».proof.Proof.Gen.KernelIdeal
import proofs.«427994_j68839735820744_3_alg».proof.Proof.Gen.KernelIdeal.Skeleton
import proofs.«427994_j68839735820744_3_alg».proof.Proof.Gen.KernelIdeal.Launch
import proofs.«427994_j68839735820744_3_alg».proof.Proof.Gen.KernelIdeal.Points
import proofs.«427994_j68839735820744_3_alg».proof.Proof.Gen.KernelIdeal.Frame
import proofs.«427994_j68839735820744_3_alg».proof.Proof.Gen.ReferenceIdeal
import proofs.«427994_j68839735820744_3_alg».proof.Proof.Gen.ReferenceIdeal.Run
import proofs.«427994_j68839735820744_3_alg».proof.Proof.Gen.ReferenceIdeal.Read
import proofs.«427994_j68839735820744_3_alg».proof.Proof.Gen.Pre_finite_inputs
import proofs.«427994_j68839735820744_3_alg».proof.Proof.KernelValue
import proofs.«427994_j68839735820744_3_alg».proof.Proof.RefValue
import proofs.«427994_j68839735820744_3_alg».proof.Proof.Law
import proofs.«427994_j68839735820744_3_alg».proof.Proof.Finite
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree, the kernel's result array ends at each batch entry's pooled row as the kernel takes it
    and the reference's at the same row as the reference takes it; on the finite inputs the precondition admits the two
    are one extended real at every index. -/
theorem algebraic : Cert.algebraic_KernelIdeal_ReferenceIdeal := by
  intro m ρ m' ρ' hpre hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, hagree c]
  funext i
  obtain ⟨b, d, rfl⟩ : ∃ (b : Fin 32) (d : Fin 512), i = ix2 b d := ⟨i 0, i 1, eq_ix2 i⟩
  rw [Cert.AttnPool.ref_value]
  exact (Cert.AttnPool.pooled_eq _ (fun s e => Cert.AttnPool.finite_of_pre _ (hpre c) (ix3 b s e)) d).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
